-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x16 : Shape := ⟨2, ![64, 16]⟩
abbrev S3200000x16 : Shape := ⟨2, ![3200000, 16]⟩
abbrev S3200000 : Shape := ⟨1, ![3200000]⟩
abbrev S_ : Shape := ⟨0, ![]⟩

class Facts : Prop where
  bcast_S_S64x16 : S_.BroadcastsInDim S64x16 (![] : Fin 0 → Fin S64x16.rank)
  reducesTo_S64x16_S_d0_1 : S64x16.ReducesTo [0, 1] S_
  h_S_ : 0 < S_.numel
  bcast_S_S3200000x16 : S_.BroadcastsInDim S3200000x16 (![] : Fin 0 → Fin S3200000x16.rank)
  reducesTo_S3200000x16_S_d0_1 : S3200000x16.ReducesTo [0, 1] S_
  bcast_S_S3200000 : S_.BroadcastsInDim S3200000 (![] : Fin 0 → Fin S3200000.rank)
  reducesTo_S3200000_S_d0 : S3200000.ReducesTo [0] S_

variable [Facts]

def fn {F : FTy → Type} [FloatOps F] (main_arg0 : FVec F S64x16 .f32) (main_arg1 : FVec F S3200000x16 .f32) (main_arg2 : FVec F S3200000 .f32) (main_arg3 : IVec S3200000 32) : IVec S_ 1 :=
  let main_v0 : FVec F S64x16 .f32 := Host.absf main_arg0
  let main_cst : FVec F S_ .f32 := constant S_ .f32 0x7F800000#32
  let main_v1 : FVec F S64x16 .f32 := broadcastInDim S64x16 ![] bcast_S_S64x16 main_cst
  let main_v2 : IVec S64x16 1 := cmpf .olt main_v0 main_v1
  let main_c : IVec S_ 1 := constantI S_ 1 1#1
  let main_v3 : IVec S_ 1 := (fun x v => Host.reduce IntOp.andi x v reducesTo_S64x16_S_d0_1 h_S_) main_v2 main_c
  let main_v4 : FVec F S3200000x16 .f32 := Host.absf main_arg1
  let main_cst_0 : FVec F S_ .f32 := constant S_ .f32 0x7F800000#32
  let main_v5 : FVec F S3200000x16 .f32 := broadcastInDim S3200000x16 ![] bcast_S_S3200000x16 main_cst_0
  let main_v6 : IVec S3200000x16 1 := cmpf .olt main_v4 main_v5
  let main_c_1 : IVec S_ 1 := constantI S_ 1 1#1
  let main_v7 : IVec S_ 1 := (fun x v => Host.reduce IntOp.andi x v reducesTo_S3200000x16_S_d0_1 h_S_) main_v6 main_c_1
  let main_v8 : IVec S_ 1 := andi main_v3 main_v7
  let main_v9 : FVec F S3200000 .f32 := Host.absf main_arg2
  let main_cst_2 : FVec F S_ .f32 := constant S_ .f32 0x7F800000#32
  let main_v10 : FVec F S3200000 .f32 := broadcastInDim S3200000 ![] bcast_S_S3200000 main_cst_2
  let main_v11 : IVec S3200000 1 := cmpf .olt main_v9 main_v10
  let main_c_3 : IVec S_ 1 := constantI S_ 1 1#1
  let main_v12 : IVec S_ 1 := (fun x v => Host.reduce IntOp.andi x v reducesTo_S3200000_S_d0 h_S_) main_v11 main_c_3
  let main_v13 : IVec S_ 1 := andi main_v8 main_v12
  main_v13
-- ==== Kernel.lean ====
abbrev S64x16 : Shape := ⟨2, ![64, 16]⟩
abbrev S3200000x16 : Shape := ⟨2, ![3200000, 16]⟩
abbrev S3200000 : Shape := ⟨1, ![3200000]⟩
abbrev S3200000x1 : Shape := ⟨2, ![3200000, 1]⟩
abbrev S3200000x64 : Shape := ⟨2, ![3200000, 64]⟩
abbrev S5120x16 : Shape := ⟨2, ![5120, 16]⟩
abbrev S5120x1 : Shape := ⟨2, ![5120, 1]⟩
abbrev S5120x64 : Shape := ⟨2, ![5120, 64]⟩
abbrev S16x64 : Shape := ⟨2, ![16, 64]⟩
abbrev S_ : Shape := ⟨0, ![]⟩
abbrev S100000x64 : Shape := ⟨2, ![100000, 64]⟩
abbrev S100000x1 : Shape := ⟨2, ![100000, 1]⟩

abbrev nBuf : Space → Nat
  | .hbm => 16
  | .vmem => 7
  | .smem => 0
  | _ => 0

abbrev bufTy : (tb : Table) → Fin (tcTables nBuf tb) → BufTy
  | .hbm, ⟨0, _⟩ => ⟨S64x16, .f32⟩
  | .hbm, ⟨1, _⟩ => ⟨S3200000x16, .f32⟩
  | .hbm, ⟨2, _⟩ => ⟨S3200000, .f32⟩
  | .hbm, ⟨3, _⟩ => ⟨S3200000, .i32⟩
  | .hbm, ⟨4, _⟩ => ⟨S3200000x1, .f32⟩
  | .hbm, ⟨5, _⟩ => ⟨S3200000x64, .f32⟩
  | .hbm, ⟨6, _⟩ => ⟨S_, .f32⟩
  | .hbm, ⟨7, _⟩ => ⟨S100000x64, .f32⟩
  | .hbm, ⟨8, _⟩ => ⟨S3200000x1, .i32⟩
  | .hbm, ⟨9, _⟩ => ⟨S100000x64, .f32⟩
  | .hbm, ⟨10, _⟩ => ⟨S_, .f32⟩
  | .hbm, ⟨11, _⟩ => ⟨S100000x1, .f32⟩
  | .hbm, ⟨12, _⟩ => ⟨S3200000x1, .i32⟩
  | .hbm, ⟨13, _⟩ => ⟨S100000x1, .f32⟩
  | .hbm, ⟨14, _⟩ => ⟨S100000x64, .f32⟩
  | .hbm, ⟨15, _⟩ => ⟨S100000x64, .f32⟩
  | .local _ .vmem, ⟨0, _⟩ => ⟨S5120x16, .f32⟩
  | .local _ .vmem, ⟨1, _⟩ => ⟨S5120x16, .f32⟩
  | .local _ .vmem, ⟨2, _⟩ => ⟨S64x16, .f32⟩
  | .local _ .vmem, ⟨3, _⟩ => ⟨S5120x1, .f32⟩
  | .local _ .vmem, ⟨4, _⟩ => ⟨S5120x1, .f32⟩
  | .local _ .vmem, ⟨5, _⟩ => ⟨S5120x64, .f32⟩
  | .local _ .vmem, ⟨6, _⟩ => ⟨S5120x64, .f32⟩
  | _, _ => ⟨S64x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![625], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5120x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5120x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5120x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S3200000_S3200000x1 : S3200000.ShapeCasts S3200000x1
  inb_S5120x16_S5120x16_0_0 : ∀ a, (![0, 0] : Fin 2 → Nat) a + S5120x16.size a ≤ S5120x16.size a
  h_S5120x16 : 0 < S5120x16.numel
  bitsLt_bf16_f32 : FTy.bits .bf16 < FTy.bits .f32
  inb_S64x16_S64x16_0_0 : ∀ a, (![0, 0] : Fin 2 → Nat) a + S64x16.size a ≤ S64x16.size a
  h_S64x16 : 0 < S64x16.numel
  transposes_S64x16_p1_0_S16x64 : S64x16.Transposes [1, 0] S16x64
  inb_S5120x1_S5120x1_0_0 : ∀ a, (![0, 0] : Fin 2 → Nat) a + S5120x1.size a ≤ S5120x1.size a
  h_S5120x1 : 0 < S5120x1.numel
  shapeCasts_S5120x1_S5120x1 : S5120x1.ShapeCasts S5120x1
  broadcasts_S5120x1_S5120x64 : S5120x1.Broadcasts S5120x64
  inb_S5120x64_S5120x64_0_0 : ∀ a, (![0, 0] : Fin 2 → Nat) a + S5120x64.size a ≤ S5120x64.size a
  h_S5120x64 : 0 < S5120x64.numel
  bcast_S_S100000x64 : S_.BroadcastsInDim S100000x64 (![] : Fin 0 → Fin S100000x64.rank)
  bcast_S3200000_S3200000x1_0 : S3200000.BroadcastsInDim S3200000x1 (![0] : Fin 1 → Fin S3200000x1.rank)
  bcast_S_S100000x1 : S_.BroadcastsInDim S100000x1 (![] : Fin 0 → Fin S100000x1.rank)
  bcast_S100000x1_S100000x64_0_1 : S100000x1.BroadcastsInDim S100000x64 (![0, 1] : Fin 2 → Fin S100000x64.rank)
  dot_S5120x16_S16x64_S5120x64_1_0_0_1_n_n_wf : DotDims.WF S5120x16 S16x64 S5120x64 [1] [0] [0] [1] [] []
  scatter_S100000x64_S3200000x1_S3200000x64_1_0_0_1_wf : ScatterDims.WF S100000x64 S3200000x1 S3200000x64 [1] [0] [0] 1
  scatter_S100000x1_S3200000x1_S3200000x1_1_0_0_1_wf : ScatterDims.WF S100000x1 S3200000x1 S3200000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5120x16.size a ≤ S3200000x16.size a
  hwx0_0 : ∀ i : grid0.Coords, EltTy.bits .f32 = 32 ∨ (Rect.block (s := S3200000x16) S5120x16.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x16.size a ≤ S64x16.size a
  hwx0_1 : ∀ i : grid0.Coords, EltTy.bits .f32 = 32 ∨ (Rect.block (s := S64x16) S64x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5120x1.size a ≤ S3200000x1.size a
  hwx0_2 : ∀ i : grid0.Coords, EltTy.bits .f32 = 32 ∨ (Rect.block (s := S3200000x1) S5120x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5120x64.size a ≤ S3200000x64.size a
  hwx0_3 : ∀ i : grid0.Coords, EltTy.bits .f32 = 32 ∨ (Rect.block (s := S3200000x64) S5120x64.size (cc0_transform_3 i) (hinb0_3 i)).WholeWords (EltTy.packing .f32)

variable [Facts₀]

def dot_S5120x16_S16x64_S5120x64_1_0_0_1_n_n : DotDims S5120x16 S16x64 S5120x64 where
  lhsContracting := [1]
  rhsContracting := [0]
  lhsNonContracting := [0]
  rhsNonContracting := [1]
  lhsBatch := []
  rhsBatch := []
  wf := dot_S5120x16_S16x64_S5120x64_1_0_0_1_n_n_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def scatter_S100000x1_S3200000x1_S3200000x1_1_0_0_1 : ScatterDims S100000x1 S3200000x1 S3200000x1 where
  updateWindowDims := [1]
  insertedWindowDims := [0]
  scatterDimsToOperandDims := [0]
  indexVectorDim := 1
  wf := scatter_S100000x1_S3200000x1_S3200000x1_1_0_0_1_wf

abbrev win0_0 : Pipeline.Window sig grid0 :=
  Pipeline.Window.ofSpec (Memref.whole main_arg1) S5120x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S64x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5120x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S5120x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S64x16 : Shape := ⟨2, ![64, 16]⟩
abbrev S3200000x16 : Shape := ⟨2, ![3200000, 16]⟩
abbrev S3200000 : Shape := ⟨1, ![3200000]⟩
abbrev S3200000x64 : Shape := ⟨2, ![3200000, 64]⟩
abbrev S_ : Shape := ⟨0, ![]⟩
abbrev S3200000x1 : Shape := ⟨2, ![3200000, 1]⟩
abbrev S100000x64 : Shape := ⟨2, ![100000, 64]⟩
abbrev S100000x1 : Shape := ⟨2, ![100000, 1]⟩

abbrev nBuf : Space → Nat
  | .hbm => 21
  | .vmem => 0
  | .smem => 0
  | _ => 0

abbrev bufTy : (tb : Table) → Fin (tcTables nBuf tb) → BufTy
  | .hbm, ⟨0, _⟩ => ⟨S64x16, .f32⟩
  | .hbm, ⟨1, _⟩ => ⟨S3200000x16, .f32⟩
  | .hbm, ⟨2, _⟩ => ⟨S3200000, .f32⟩
  | .hbm, ⟨3, _⟩ => ⟨S3200000, .i32⟩
  | .hbm, ⟨4, _⟩ => ⟨S3200000x64, .f32⟩
  | .hbm, ⟨5, _⟩ => ⟨S_, .f32⟩
  | .hbm, ⟨6, _⟩ => ⟨S3200000x64, .f32⟩
  | .hbm, ⟨7, _⟩ => ⟨S3200000x64, .f32⟩
  | .hbm, ⟨8, _⟩ => ⟨S3200000x1, .f32⟩
  | .hbm, ⟨9, _⟩ => ⟨S3200000x64, .f32⟩
  | .hbm, ⟨10, _⟩ => ⟨S3200000x64, .f32⟩
  | .hbm, ⟨11, _⟩ => ⟨S_, .f32⟩
  | .hbm, ⟨12, _⟩ => ⟨S100000x64, .f32⟩
  | .hbm, ⟨13, _⟩ => ⟨S3200000x1, .i32⟩
  | .hbm, ⟨14, _⟩ => ⟨S100000x64, .f32⟩
  | .hbm, ⟨15, _⟩ => ⟨S_, .f32⟩
  | .hbm, ⟨16, _⟩ => ⟨S100000x1, .f32⟩
  | .hbm, ⟨17, _⟩ => ⟨S3200000x1, .i32⟩
  | .hbm, ⟨18, _⟩ => ⟨S100000x1, .f32⟩
  | .hbm, ⟨19, _⟩ => ⟨S100000x64, .f32⟩
  | .hbm, ⟨20, _⟩ => ⟨S100000x64, .f32⟩
  | _, _ => ⟨S64x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩

abbrev nD : Nat := 1
abbrev τ : Topo := Topo.v7x

variable {F : FTy → Type} [FloatOps F]

class Facts₀ : Prop where
  bcast_S_S3200000x64 : S_.BroadcastsInDim S3200000x64 (![] : Fin 0 → Fin S3200000x64.rank)
  bcast_S3200000_S3200000x1_0 : S3200000.BroadcastsInDim S3200000x1 (![0] : Fin 1 → Fin S3200000x1.rank)
  bcast_S3200000x1_S3200000x64_0_1 : S3200000x1.BroadcastsInDim S3200000x64 (![0, 1] : Fin 2 → Fin S3200000x64.rank)
  bcast_S_S100000x64 : S_.BroadcastsInDim S100000x64 (![] : Fin 0 → Fin S100000x64.rank)
  bcast_S_S100000x1 : S_.BroadcastsInDim S100000x1 (![] : Fin 0 → Fin S100000x1.rank)
  bcast_S100000x1_S100000x64_0_1 : S100000x1.BroadcastsInDim S100000x64 (![0, 1] : Fin 2 → Fin S100000x64.rank)
  dot_S3200000x16_S64x16_S3200000x64_1_1_0_0_n_n_wf : DotDims.WF S3200000x16 S64x16 S3200000x64 [1] [1] [0] [0] [] []
  scatter_S100000x64_S3200000x1_S3200000x64_1_0_0_1_wf : ScatterDims.WF S100000x64 S3200000x1 S3200000x64 [1] [0] [0] 1
  scatter_S100000x1_S3200000x1_S3200000x1_1_0_0_1_wf : ScatterDims.WF S100000x1 S3200000x1 S3200000x1 [1] [0] [0] 1

variable [Facts₀]

def dot_S3200000x16_S64x16_S3200000x64_1_1_0_0_n_n : DotDims S3200000x16 S64x16 S3200000x64 where
  lhsContracting := [1]
  rhsContracting := [1]
  lhsNonContracting := [0]
  rhsNonContracting := [0]
  lhsBatch := []
  rhsBatch := []
  wf := dot_S3200000x16_S64x16_S3200000x64_1_1_0_0_n_n_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def scatter_S100000x1_S3200000x1_S3200000x1_1_0_0_1 : ScatterDims S100000x1 S3200000x1 S3200000x1 where
  updateWindowDims := [1]
  insertedWindowDims := [0]
  scatterDimsToOperandDims := [0]
  indexVectorDim := 1
  wf := scatter_S100000x1_S3200000x1_S3200000x1_1_0_0_1_wf

class Facts : Prop extends Facts₀ where

variable [Facts]
-- ==== Proof.EdgeTerm.lean ====
/-
  What both programs compute, stated once over the literal shapes.

  For edge `e` and embedding row `u` the per-edge term is the rectified inner product of the edge's
  coordinate features with the embedding row, scaled by the edge's weight:
      edgeTerm e u = max (Σ_k coord[e,k] · emb[u,k]) 0 · w[e].
  The result is the weighted segment mean over the destination nodes: the per-edge terms summed into their
  node's row, divided by the node's summed weights. The aggregation is the same scatter / scatter /
  broadcast / divide on both sides, so it is stated as ONE function of the index column, the per-edge terms
  and the weight column; nothing about the values of a scatter is ever opened.
-/
import Idealize.ShloMosaic.PureOps.Ideal
import Idealize.ShloMosaic.Lib.ValueIdx

noncomputable section

namespace Cert.RaggedConv

open Idealize.ShloMosaic Idealize.ShloMosaic.ValueIdx

/-- The embedding table, 64 rows of 16 features. -/
abbrev SEmb : Shape := ⟨2, ![64, 16]⟩
/-- The edges' coordinate features. -/
abbrev SCoord : Shape := ⟨2, ![3200000, 16]⟩
/-- One entry per edge (weights, destination indices). -/
abbrev SEdge : Shape := ⟨1, ![3200000]⟩
/-- The same as a column. -/
abbrev SEdgeCol : Shape := ⟨2, ![3200000, 1]⟩
/-- The per-edge terms. -/
abbrev SEdgeFeat : Shape := ⟨2, ![3200000, 64]⟩
/-- The per-node result. -/
abbrev SNodeFeat : Shape := ⟨2, ![100000, 64]⟩
/-- The per-node summed weights, a column. -/
abbrev SNodeCol : Shape := ⟨2, ![100000, 1]⟩
/-- A scalar. -/
abbrev SScalar : Shape := ⟨0, ![]⟩

/-- The per-edge term: `max (Σ_k coord[e,k] · emb[u,k]) 0 · w[e]` at index `(e, u)`. -/
def edgeTerm (emb : FVec Ideal SEmb .f32) (coord : FVec Ideal SCoord .f32) (w : FVec Ideal SEdge .f32) :
    FVec Ideal SEdgeFeat .f32 :=
  fun i => max (∑ k : Fin 16, coord (ix2 (n0 := 3200000) (n1 := 16) (i 0) k) * emb (ix2 (n0 := 64) (n1 := 16) (i 1) k)) 0
    * w (ix1 (n := 3200000) (i 0))

/-- The weights as a column: entry `(e, 0)` is `w[e]`. -/
def weightColumn (w : FVec Ideal SEdge .f32) : FVec Ideal SEdgeCol .f32 :=
  fun i => w (ix1 (n := 3200000) (i 0))

/-- The weighted segment mean: the per-edge terms `u` added into the rows the index column names, over the
    weight column `wc` added into the same rows and spread along the features. The dimension records and the
    shape relations are arguments, so that each program's own instances of them fit. -/
def segmentMean (d64 : ScatterDims SNodeFeat SEdgeCol SEdgeFeat) (d1 : ScatterDims SNodeCol SEdgeCol SEdgeCol)
    (hz64 : SScalar.BroadcastsInDim SNodeFeat (![] : Fin 0 → Fin SNodeFeat.rank))
    (hcol : SEdge.BroadcastsInDim SEdgeCol (![0] : Fin 1 → Fin SEdgeCol.rank))
    (hz1 : SScalar.BroadcastsInDim SNodeCol (![] : Fin 0 → Fin SNodeCol.rank))
    (hspread : SNodeCol.BroadcastsInDim SNodeFeat (![0, 1] : Fin 2 → Fin SNodeFeat.rank))
    (idx : IVec SEdge 32) (u : FVec Ideal SEdgeFeat .f32) (wc : FVec Ideal SEdgeCol .f32) : FVec Ideal SNodeFeat .f32 :=
  Host.divf
    (Host.scatterAdd d64 (broadcastInDim SNodeFeat ![] hz64 (constant (F := Ideal) SScalar .f32 0x00000000#32))
      (broadcastInDim SEdgeCol ![0] hcol idx) u)
    (broadcastInDim SNodeFeat ![0, 1] hspread
      (Host.scatterAdd d1 (broadcastInDim SNodeCol ![] hz1 (constant (F := Ideal) SScalar .f32 0x00000000#32))
        (broadcastInDim SEdgeCol ![0] hcol idx) wc))

end Cert.RaggedConv

end
-- ==== Proof.RefEdge.lean ====
/-
  The reference, read at an index: its per-edge stage IS the per-edge term, its weight column IS the weights as a
  column, and its result IS the weighted segment mean of those two.

  The reference contracts the edges' coordinate features with the embedding rows by one `dot_general` (left factor
  the coordinate feature, right factor the embedding entry, summed over the 16 features), rectifies against a
  broadcast zero, and multiplies by the weights broadcast first to a column and then along the 64 features. Read
  at index `(e, u)` that is `max (Σ_k coord[e,k] · emb[u,k]) 0 · w[e]`, term for term.
-/
import proofs.«168170_j45612552683659_1_alg».proof.Proof.Gen.ReferenceIdeal.Read
import proofs.«168170_j45612552683659_1_alg».proof.Proof.EdgeTerm

noncomputable section

namespace Cert.RaggedConv.Reference

open Cert.ReferenceIdeal Cert.ReferenceIdeal.Gen Cert.ReferenceIdeal.Read
open Idealize.ShloMosaic Idealize.ShloMosaic.ValueIdx Cert.RaggedConv

/-- The left operand's index of the contraction at `(e, u)`, feature `k`, is `(e, k)`. -/
theorem lidx_eq (i : S3200000x64.Idx) (k : Fin 16) :
    lidx_main_v0 i k = ix2 (n0 := 3200000) (n1 := 16) (i 0) k :=
  funext fun a => Fin.ext (by match a with | ⟨0, _⟩ => rfl | ⟨1, _⟩ => rfl)

/-- The right operand's is `(u, k)`. -/
theorem ridx_eq (i : S3200000x64.Idx) (k : Fin 16) :
    ridx_main_v0 i k = ix2 (n0 := 64) (n1 := 16) (i 1) k :=
  funext fun a => Fin.ext (by match a with | ⟨0, _⟩ => rfl | ⟨1, _⟩ => rfl)

/-- The weight that meets entry `(e, u)` is `w[e]`: the two broadcasts composed. -/
theorem widx_eq (i : S3200000x64.Idx) :
    idx_main_v2 (idx_main_v3 i) = ix1 (n := 3200000) (i 0) :=
  funext fun a => Fin.ext (by match a with | ⟨0, _⟩ => rfl)

/-- The weight column's entry `(e, 0)` reads `w[e]`. -/
theorem cidx_eq (i : S3200000x1.Idx) :
    idx_main_v2 i = ix1 (n := 3200000) (i 0) :=
  funext fun a => Fin.ext (by match a with | ⟨0, _⟩ => rfl)

/-- The reference's product stage is the per-edge term. -/
theorem edge_eq (x0 : FVec Ideal SEmb .f32) (x1 : FVec Ideal SCoord .f32) (x2 : FVec Ideal SEdge .f32) :
    val_main_v4 (F := Ideal) x0 x1 x2 = edgeTerm x0 x1 x2 := by
  funext i
  rw [val_main_v4_apply, val_main_v1_apply, val_main_v0_apply, val_main_call0_v0_apply, val_main_call0_cst_apply,
    val_main_v3_apply, val_main_v2_apply]
  simp only [edgeTerm, lidx_eq, ridx_eq, widx_eq, Ideal.mulf_def, Ideal.maximumf_def, Ideal.ofBits_def,
    Ideal.ofBits_zero_f32]

/-- The reference's first broadcast of the weights is the weight column. -/
theorem column_eq (x2 : FVec Ideal SEdge .f32) : val_main_v2 (F := Ideal) x2 = weightColumn x2 := by
  funext i
  rw [val_main_v2_apply, cidx_eq]
  rfl

/-- The reference's result is the weighted segment mean of the per-edge terms over the weight column. -/
theorem result_eq (x0 : FVec Ideal SEmb .f32) (x1 : FVec Ideal SCoord .f32) (x2 : FVec Ideal SEdge .f32)
    (x3 : IVec SEdge 32) :
    val_main_v12 (F := Ideal) x0 x1 x2 x3
      = segmentMean scatter_S100000x64_S3200000x1_S3200000x64_1_0_0_1 scatter_S100000x1_S3200000x1_S3200000x1_1_0_0_1
          bcast_S_S100000x64 bcast_S3200000_S3200000x1_0 bcast_S_S100000x1 bcast_S100000x1_S100000x64_0_1
          x3 (edgeTerm x0 x1 x2) (weightColumn x2) := by
  rw [← edge_eq, ← column_eq]
  rfl

end Cert.RaggedConv.Reference

end
-- ==== Proof.BlockTerm.lean ====
/-
  The kernel body's stored value, read at an index of its block.

  At one grid point the body loads a block of 5120 edges' coordinate features, the whole embedding table and
  the block's 5120 weights as a column. It multiplies the coordinate block by the TRANSPOSED table on the
  matrix unit into a zero accumulator, so entry `(p, q)` of the product is `Σ_k x0[p,k] · x1[q,k]`: the
  contraction runs over the left operand's axis 1 and the transposed operand's axis 0, and the transposed
  operand at `(k, q)` is the table at `(q, k)`. The narrowing to bf16 before the product is the identity on
  the exact values. The body then rectifies against a broadcast zero and multiplies by the weight column
  spread along the 64 features, so the stored entry is `max (Σ_k x0[p,k] · x1[q,k]) 0 · x2[p,0]`.
-/
import proofs.«168170_j45612552683659_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.RaggedConv.Kernel

open Cert.KernelIdeal Cert.KernelIdeal.Gen
open Idealize.ShloMosaic Idealize.ShloMosaic.ValueIdx

/-! ## The product's operand indices, axis by axis -/

/-- The left operand's row is the output's row. -/
theorem lhs_dot_S5120x16_S16x64_S5120x64_1_0_0_1_n_n_0 (i : S5120x64.Idx) (q : dot_S5120x16_S16x64_S5120x64_1_0_0_1_n_n.contr.Idx) :
    (dot_S5120x16_S16x64_S5120x64_1_0_0_1_n_n.lhsIdx i q 0).val = (i 0).val := by
  unfold DotDims.lhsIdx
  rw [dif_neg (show ¬(0 : Fin S5120x16.rank) ∈ dot_S5120x16_S16x64_S5120x64_1_0_0_1_n_n.lhsBatch by decide), dif_pos (show (0 : Fin S5120x16.rank) ∈ dot_S5120x16_S16x64_S5120x64_1_0_0_1_n_n.lhsNonContracting by decide)]
  rfl
/-- The left operand's column is the contracted feature. -/
theorem lhs_dot_S5120x16_S16x64_S5120x64_1_0_0_1_n_n_1 (i : S5120x64.Idx) (q : dot_S5120x16_S16x64_S5120x64_1_0_0_1_n_n.contr.Idx) :
    (dot_S5120x16_S16x64_S5120x64_1_0_0_1_n_n.lhsIdx i q 1).val = (q ⟨0, by decide⟩).val :=
  dot_S5120x16_S16x64_S5120x64_1_0_0_1_n_n.lhsIdx_val_of_single rfl i q
/-- The transposed operand's row is the contracted feature. -/
theorem rhs_dot_S5120x16_S16x64_S5120x64_1_0_0_1_n_n_0 (i : S5120x64.Idx) (q : dot_S5120x16_S16x64_S5120x64_1_0_0_1_n_n.contr.Idx) :
    (dot_S5120x16_S16x64_S5120x64_1_0_0_1_n_n.rhsIdx i q 0).val = (q ⟨0, by decide⟩).val :=
  dot_S5120x16_S16x64_S5120x64_1_0_0_1_n_n.rhsIdx_val_of_single rfl i q
/-- The transposed operand's column is the output's column. -/
theorem rhs_dot_S5120x16_S16x64_S5120x64_1_0_0_1_n_n_1 (i : S5120x64.Idx) (q : dot_S5120x16_S16x64_S5120x64_1_0_0_1_n_n.contr.Idx) :
    (dot_S5120x16_S16x64_S5120x64_1_0_0_1_n_n.rhsIdx i q 1).val = (i 1).val := by
  unfold DotDims.rhsIdx
  rw [dif_neg (show ¬(1 : Fin S16x64.rank) ∈ dot_S5120x16_S16x64_S5120x64_1_0_0_1_n_n.rhsBatch by decide), dif_pos (show (1 : Fin S16x64.rank) ∈ dot_S5120x16_S16x64_S5120x64_1_0_0_1_n_n.rhsNonContracting by decide)]
  rfl

/-! ## The three non-pointwise pieces at an index -/

/-- The product into the zero accumulator at `(p, q)`: the coordinate block's row `p` against the table's row `q`. -/
theorem product_apply (x0 : FVec Ideal S5120x16 .f32) (x1 : FVec Ideal S64x16 .f32) (p : Fin 5120) (q : Fin 64) :
    matmul dot_S5120x16_S16x64_S5120x64_1_0_0_1_n_n none (truncf .bf16 x0 bitsLt_bf16_f32)
        (transpose S16x64 [1, 0] (truncf .bf16 x1 bitsLt_bf16_f32) transposes_S64x16_p1_0_S16x64)
        (constant S5120x64 .f32 0x00000000#32) (ix2 (n0 := 5120) (n1 := 64) p q)
      = ∑ k : Fin 16, x0 (ix2 (n0 := 5120) (n1 := 16) p k) * x1 (ix2 (n0 := 64) (n1 := 16) q k) := by
  simp only [matmul]
  rw [Ideal.matmul_constant_zero_apply, ← Equiv.sum_comp (contrEquiv1 dot_S5120x16_S16x64_S5120x64_1_0_0_1_n_n 16 rfl rfl).symm]
  refine Finset.sum_congr rfl fun k _ => ?_
  have hk := contrEquiv1_symm_val dot_S5120x16_S16x64_S5120x64_1_0_0_1_n_n 16 rfl rfl k
  have el : dot_S5120x16_S16x64_S5120x64_1_0_0_1_n_n.lhsIdx (ix2 (n0 := 5120) (n1 := 64) p q) ((contrEquiv1 dot_S5120x16_S16x64_S5120x64_1_0_0_1_n_n 16 rfl rfl).symm k) = ix2 (n0 := 5120) (n1 := 16) p k := funext fun a => Fin.ext (by
    match a with
    | ⟨0, _⟩ => exact lhs_dot_S5120x16_S16x64_S5120x64_1_0_0_1_n_n_0 _ _
    | ⟨1, _⟩ => exact (lhs_dot_S5120x16_S16x64_S5120x64_1_0_0_1_n_n_1 _ _).trans hk)
  have er : transpose S16x64 [1, 0] (truncf .bf16 x1 bitsLt_bf16_f32) transposes_S64x16_p1_0_S16x64
      (dot_S5120x16_S16x64_S5120x64_1_0_0_1_n_n.rhsIdx (ix2 (n0 := 5120) (n1 := 64) p q) ((contrEquiv1 dot_S5120x16_S16x64_S5120x64_1_0_0_1_n_n 16 rfl rfl).symm k))
        = x1 (ix2 (n0 := 64) (n1 := 16) q k) := by
    refine (transpose_apply [1, 0] (truncf .bf16 x1 bitsLt_bf16_f32) transposes_S64x16_p1_0_S16x64 _ (ix2 (n0 := 64) (n1 := 16) q k) (fun b => ?_)).trans rfl
    match b with
    | ⟨0, _⟩ => exact ((rhs_dot_S5120x16_S16x64_S5120x64_1_0_0_1_n_n_0 _ _).trans hk).symm
    | ⟨1, _⟩ =>
      show q.val = _
      exact (rhs_dot_S5120x16_S16x64_S5120x64_1_0_0_1_n_n_1 (ix2 (n0 := 5120) (n1 := 64) p q) _).symm
  rw [el, er]
  rfl

/-- The weight column spread along the features, at `(p, q)`, is the column's entry `(p, 0)`. -/
theorem spread_apply (x2 : FVec Ideal S5120x1 .f32) (p : Fin 5120) (q : Fin 64) :
    broadcastTo S5120x64 (shapeCast S5120x1 x2 shapeCasts_S5120x1_S5120x1) broadcasts_S5120x1_S5120x64 (ix2 (n0 := 5120) (n1 := 64) p q)
      = x2 (ix2 (n0 := 5120) (n1 := 1) p 0) := by
  rw [shapeCast_self]
  exact broadcastTo_apply x2 broadcasts_S5120x1_S5120x64 _ (ix2 (n0 := 5120) (n1 := 1) p 0) (fun a => match a with
    | ⟨0, _⟩ => by show p.val = if (5120 : Nat) = 1 then 0 else p.val; rw [if_neg (by decide)]
    | ⟨1, _⟩ => by show 0 = if (1 : Nat) = 1 then 0 else _; rw [if_pos rfl])

/-! ## The stored value at an index -/

/-- The body's one store, at entry `(p, q)` of the block: the rectified inner product of coordinate row `p` with table
    row `q`, times weight `p`. -/
theorem stored_apply (x0 : Vec Ideal S5120x16 .f32) (x1 : Vec Ideal S64x16 .f32) (x2 : Vec Ideal S5120x1 .f32) (p : Fin 5120) (q : Fin 64) :
    k0_pay1 (F := Ideal) x0 x1 x2 (ix2 (n0 := 5120) (n1 := 64) p q)
      = max (∑ k : Fin 16, x0 (ix2 (n0 := 5120) (n1 := 16) p k) * x1 (ix2 (n0 := 64) (n1 := 16) q k)) 0
          * x2 (ix2 (n0 := 5120) (n1 := 1) p 0) := by
  unfold k0_pay1
  dsimp only
  rw [mulf_apply, maximumf_apply, broadcast_apply, product_apply, spread_apply]
  simp only [Scalar.ofBits, Ideal.ofBits_def, Ideal.ofBits_zero_f32]

end Cert.RaggedConv.Kernel

end
-- ==== Proof.EdgeArray.lean ====
/-
  From the blocks the grid points write back to the whole per-edge array.

  The grid has 625 points. Point `t` reads rows `5120·t … 5120·t + 5119` of the edges' coordinate features and of
  the weight column, the whole embedding table, and writes rows `5120·t … 5120·t + 5119` of the per-edge array:
  every window's block index on the edge axis is the point itself, and on the other axis it is zero. So entry
  `(p, q)` of the block written at `t` is the per-edge term at `(5120·t + p, q)`; the 625 blocks tile the
  3,200,000 rows (row `r` lies in the block of point `r / 5120`), and the array after the run is the per-edge term
  everywhere. The weight column the region finds is the weights reshaped, so its entry `(e, 0)` is `w[e]`.
-/
import proofs.«168170_j45612552683659_1_alg».proof.Proof.Gen.KernelIdeal.Frame
import proofs.«168170_j45612552683659_1_alg».proof.Proof.EdgeTerm
import proofs.«168170_j45612552683659_1_alg».proof.Proof.BlockTerm
import Idealize.ShloMosaic.Lib.Pipeline.Value
import Idealize.ShloMosaic.Lib.StableHlo.Run
import Idealize.ShloMosaic.Lib.ValueIdx

noncomputable section

namespace Cert.RaggedConv.Kernel

open Cert.KernelIdeal Cert.KernelIdeal.Gen
open Idealize.ShloMosaic Idealize.ShloMosaic.TcCoe Idealize.SL.Sem Idealize.ShloMosaic.ValueIdx
open Idealize.ShloMosaic.Pipeline (Dat)
open Cert.RaggedConv

variable (m : (ℓ : Loc nD τ sig) → Buf (Elt Ideal) ℓ)

theorem offsets_zero : (![0, 0] : Fin 2 → Nat) = fun _ => 0 := funext fun a => by fin_cases a <;> rfl

/-- The printed index maps over the grid: on the edge axis every window's block index is the point, except the
    table's, which stays at zero; on the other axis all are zero. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-! ## The input blocks as entries of the argument arrays -/

/-- The coordinate block at point `t` holds rows `5120·t + ·` of the edges' coordinate features. -/
theorem coordBlock_apply (c : Dev nD) (t : Fin cfg0.N) (y : S5120x16.Idx) (k : S3200000x16.Idx)
    (hk0 : (k 0).val = 5120 * t.val + (y 0).val) (hk1 : (k 1).val = (y 1).val) :
    (iblk m c 0 t : Vec Ideal S5120x16 .f32) y = (m ((c : Thread nD τ).loc main_arg1) : S3200000x16.Idx → EReal) k := by
  obtain ⟨e0, e1, -, -, -, -, -, -⟩ := block_indices t
  unfold iblk
  rw [View.read_apply]
  show V m c main_arg1 _ = _
  rw [V_main_arg1]
  congr 1
  funext a
  apply Fin.ext
  match a with
  | ⟨0, _⟩ => show win0_0.index t (0 : Fin 2) * 5120 + 1 * (y 0).val = (k 0).val; rw [e0, hk0]; omega
  | ⟨1, _⟩ => show win0_0.index t (1 : Fin 2) * 16 + 1 * (y 1).val = (k 1).val; rw [e1, hk1]; omega

/-- The table's block at every point is the embedding table. -/
theorem tableBlock_apply (c : Dev nD) (t : Fin cfg0.N) (y : S64x16.Idx) :
    (iblk m c 1 t : Vec Ideal S64x16 .f32) y = (m ((c : Thread nD τ).loc main_arg0) : S64x16.Idx → EReal) y := by
  obtain ⟨-, -, e2, e3, -, -, -, -⟩ := block_indices t
  unfold iblk
  rw [View.read_apply]
  show V m c main_arg0 _ = _
  rw [V_main_arg0]
  congr 1
  funext a
  apply Fin.ext
  match a with
  | ⟨0, _⟩ => show win0_1.index t (0 : Fin 2) * 64 + 1 * (y 0).val = (y 0).val; rw [e2]; omega
  | ⟨1, _⟩ => show win0_1.index t (1 : Fin 2) * 16 + 1 * (y 1).val = (y 1).val; rw [e3]; omega

/-- The weight column as the region finds it: the weights reshaped to a column. -/
theorem column_found (c : Dev nD) :
    (V m c main_v0 : S3200000x1.Idx → EReal)
      = shapeCast S3200000x1 (m ((c : Thread nD τ).loc main_arg2) : S3200000.Idx → EReal) shapeCasts_S3200000_S3200000x1 := by
  show StableHlo.after hostOps0 (fun b => m (c, b)) (Proc.devRef .tc main_v0) = _
  after_results
  rfl

/-- The weight block at point `t` holds weights `5120·t + ·`. -/
theorem weightBlock_apply (c : Dev nD) (t : Fin cfg0.N) (y : S5120x1.Idx) (k : S3200000.Idx)
    (hk : (k 0).val = 5120 * t.val + (y 0).val) :
    (iblk m c 2 t : Vec Ideal S5120x1 .f32) y = (m ((c : Thread nD τ).loc main_arg2) : S3200000.Idx → EReal) k := by
  obtain ⟨-, -, -, -, e4, e5, -, -⟩ := block_indices t
  have hy1 : (y 1).val < 1 := (y 1).isLt
  unfold iblk
  rw [View.read_apply]
  show V m c main_v0 _ = _
  rw [column_found]
  refine shapeCast_apply _ _ _ k ?_
  rw [Shape.rowMajor_val_one, Shape.rowMajor_val_two, hk]
  show _ = (win0_2.index t (0 : Fin 2) * 5120 + 1 * (y 0).val) * 1 + (win0_2.index t (1 : Fin 2) * 1 + 1 * (y 1).val)
  rw [e4, e5]
  omega

/-! ## What a point writes back, and the array after the run -/

/-- The body's stored value over the block's own index. -/
theorem stored_at (x0 : Vec Ideal S5120x16 .f32) (x1 : Vec Ideal S64x16 .f32) (x2 : Vec Ideal S5120x1 .f32) (j : S5120x64.Idx) :
    k0_pay1 (F := Ideal) x0 x1 x2 j
      = max (∑ k : Fin 16, x0 (ix2 (n0 := 5120) (n1 := 16) (j 0) k) * x1 (ix2 (n0 := 64) (n1 := 16) (j 1) k)) 0
          * x2 (ix2 (n0 := 5120) (n1 := 1) (j 0) 0) := by
  obtain ⟨p, q, rfl⟩ : ∃ (p : Fin 5120) (q : Fin 64), j = ix2 p q := ⟨j 0, j 1, eq_ix2 j⟩
  exact stored_apply x0 x1 x2 p q

/-- WHAT POINT `t` WRITES BACK is block `t` of the per-edge term of the argument arrays. -/
theorem flushed_eq (c : Dev nD) (t : Fin cfg0.N) :
    (dats m 0 c).flushed 3 t = ((cfg0.win 3).blk t).view.read (Elt Ideal)
      (edgeTerm (m ((c : Thread nD τ).loc main_arg0)) (m ((c : Thread nD τ).loc main_arg1)) (m ((c : Thread nD τ).loc main_arg2))) := by
  show (cfg0.win 3).cut (grid0.coords t) ((dats m 0 c).after 3 t) = _
  rw [after0_3]
  unfold out0_3
  rw [View.canon_unit_zero offsets_zero]
  simp only [View.ld_unit_zero (S := S5120x16) offsets_zero, View.ld_unit_zero (S := S64x16) offsets_zero,
    View.ld_unit_zero (S := S5120x1) offsets_zero]
  obtain ⟨-, -, -, -, -, -, e6, e7⟩ := block_indices t
  funext j
  rw [View.read_apply]
  show k0_pay1 (F := Ideal) (iblk m c 0 t) (iblk m c 1 t) (iblk m c 2 t) j
    = edgeTerm (m ((c : Thread nD τ).loc main_arg0)) (m ((c : Thread nD τ).loc main_arg1)) (m ((c : Thread nD τ).loc main_arg2))
        (((cfg0.win 3).blk t).view.emb j)
  have hrow : ((((cfg0.win 3).blk t).view.emb j) 0).val = 5120 * t.val + (j 0).val := by
    show win0_3.index t (0 : Fin 2) * 5120 + 1 * (j 0).val = _
    rw [e6]; omega
  have hcol : ((((cfg0.win 3).blk t).view.emb j) 1).val = (j 1).val := by
    show win0_3.index t (1 : Fin 2) * 64 + 1 * (j 1).val = _
    rw [e7]; omega
  refine (stored_at _ _ _ j).trans ?_
  unfold edgeTerm
  have hc : ∀ k : Fin 16, (iblk m c 0 t : Vec Ideal S5120x16 .f32) (ix2 (n0 := 5120) (n1 := 16) (j 0) k)
      = (m ((c : Thread nD τ).loc main_arg1) : S3200000x16.Idx → EReal)
          (ix2 (n0 := 3200000) (n1 := 16) ((((cfg0.win 3).blk t).view.emb j) 0) k) :=
    fun k => coordBlock_apply m c t _ _ hrow rfl
  have he : ∀ k : Fin 16, (iblk m c 1 t : Vec Ideal S64x16 .f32) (ix2 (n0 := 64) (n1 := 16) (j 1) k)
      = (m ((c : Thread nD τ).loc main_arg0) : S64x16.Idx → EReal)
          (ix2 (n0 := 64) (n1 := 16) ((((cfg0.win 3).blk t).view.emb j) 1) k) := fun k => by
    rw [tableBlock_apply]
    exact congrArg _ (funext fun a => Fin.ext (by match a with | ⟨0, _⟩ => exact hcol.symm | ⟨1, _⟩ => rfl))
  have hw : (iblk m c 2 t : Vec Ideal S5120x1 .f32) (ix2 (n0 := 5120) (n1 := 1) (j 0) 0)
      = (m ((c : Thread nD τ).loc main_arg2) : S3200000.Idx → EReal)
          (ix1 (n := 3200000) ((((cfg0.win 3).blk t).view.emb j) 0)) :=
    weightBlock_apply m c t _ _ hrow
  rw [hw, Finset.sum_congr rfl fun k _ => by rw [hc k, he k]]

/-- An index of the per-edge array is in point `t`'s block iff each coordinate is in the block's range on its axis. -/
theorem mem_blk (t : Fin cfg0.N) (i : S3200000x64.Idx) :
    i ∈ ((cfg0.win 3).blk t).view.set ↔ ∀ a : Fin 2, win0_3.index t a * S5120x64.size a ≤ (i a).val ∧ (i a).val < win0_3.index t a * S5120x64.size a + S5120x64.size a := by
  show i ∈ ((View.whole main_v1).slice (win0_3.rect t)).set ↔ _
  rw [View.set_slice_whole, Rect.mem_set_unit]
  exact Iff.rfl

/-- Row `r` of the per-edge array is written by point `r / 5120`. -/
theorem covered (i : S3200000x64.Idx) :
    ∃ t : Fin cfg0.N, (cfg0.win 3).flush t = true ∧ i ∈ ((cfg0.win 3).blk t).view.set := by
  have hN : cfg0.N = 625 := N_0
  have hi0 : (i 0).val < 3200000 := (i 0).isLt
  have hi1 : (i 1).val < 64 := (i 1).isLt
  have ht : (i 0).val / 5120 < cfg0.N := by rw [hN]; omega
  obtain ⟨-, -, -, -, -, -, e6, e7⟩ := block_indices ⟨(i 0).val / 5120, ht⟩
  refine ⟨⟨(i 0).val / 5120, ht⟩, flush0_3 _, ?_⟩
  rw [mem_blk]
  intro a
  match a with
  | ⟨0, _⟩ =>
    show win0_3.index ⟨(i 0).val / 5120, ht⟩ (0 : Fin 2) * 5120 ≤ (i 0).val ∧ (i 0).val < win0_3.index ⟨(i 0).val / 5120, ht⟩ (0 : Fin 2) * 5120 + 5120
    rw [e6]; show (i 0).val / 5120 * 5120 ≤ (i 0).val ∧ (i 0).val < (i 0).val / 5120 * 5120 + 5120; omega
  | ⟨1, _⟩ =>
    show win0_3.index ⟨(i 0).val / 5120, ht⟩ (1 : Fin 2) * 64 ≤ (i 1).val ∧ (i 1).val < win0_3.index ⟨(i 0).val / 5120, ht⟩ (1 : Fin 2) * 64 + 64
    rw [e7]; omega

/-- THE PER-EDGE ARRAY after the run is the per-edge term of the argument arrays. -/
theorem edgeArray_final (c : Dev nD) :
    (dats m 0 c).arrAt 3 cfg0.N
      = edgeTerm (m ((c : Thread nD τ).loc main_arg0)) (m ((c : Thread nD τ).loc main_arg1)) (m ((c : Thread nD τ).loc main_arg2)) :=
  (dats m 0 c).arrAt_eq_of_cover 3 _ (fun t _ => flushed_eq m c t) covered

/-- The weight column the region finds is the weights as a column. -/
theorem column_eq (c : Dev nD) :
    (V m c main_v0 : S3200000x1.Idx → EReal) = weightColumn (m ((c : Thread nD τ).loc main_arg2)) := by
  rw [column_found]
  funext i
  have hi1 : (i 1).val < 1 := (i 1).isLt
  refine shapeCast_apply _ _ i (ix1 (n := 3200000) (i 0)) ?_
  rw [Shape.rowMajor_val_one, Shape.rowMajor_val_two]
  show (i 0).val = (i 0).val * 1 + (i 1).val
  omega

end Cert.RaggedConv.Kernel

end
-- ==== Proof.KernelRun.lean ====
/-
  The kernel program's run, read: its result is the weighted segment mean of the per-edge terms.

  After the region the program adds the per-edge array into the rows the destination indices name, adds the weight
  column into the same rows, spreads those sums along the features and divides. Those ten host operations read three
  buffers the region leaves: the destination indices (an argument no window stages, as launched), the weight column
  (an input window's array, as the region found it: the weights reshaped) and the per-edge array (the output window's
  array after the 625 write-backs: the per-edge term). Of any contents of those three the operations compute the
  weighted segment mean, so of these they compute it of the per-edge term and the weights.
-/
import proofs.«168170_j45612552683659_1_alg».proof.Proof.Gen.KernelIdeal.Frame
import proofs.«168170_j45612552683659_1_alg».proof.Proof.EdgeTerm
import proofs.«168170_j45612552683659_1_alg».proof.Proof.EdgeArray
import Idealize.ShloMosaic.Lib.StableHlo.Run

noncomputable section

namespace Cert.RaggedConv.Kernel

open Cert.KernelIdeal Cert.KernelIdeal.Gen
open Idealize.ShloMosaic Idealize.ShloMosaic.TcCoe Idealize.SL.Sem
open Idealize.ShloMosaic.Pipeline (Dat)
open Cert.RaggedConv

variable (m : (ℓ : Loc nD τ sig) → Buf (Elt Ideal) ℓ) (ρ : Dev nD → PrngReg)

/-- The weighted segment mean at this program's own dimension records and shape relations. -/
abbrev aggregate (idx : IVec SEdge 32) (u : FVec Ideal SEdgeFeat .f32) (wc : FVec Ideal SEdgeCol .f32) : FVec Ideal SNodeFeat .f32 :=
  segmentMean scatter_S100000x64_S3200000x1_S3200000x64_1_0_0_1 scatter_S100000x1_S3200000x1_S3200000x1_1_0_0_1
    bcast_S_S100000x64 bcast_S3200000_S3200000x1_0 bcast_S_S100000x1 bcast_S100000x1_S100000x64_0_1 idx u wc

/-- The operations after the region, from ANY buffer contents, leave in the result buffer the weighted segment mean of
    what they find in the per-edge array, over what they find in the weight column, by the destination indices. -/
theorem tail_result (W : Valuation τ sig (Elt Ideal)) :
    StableHlo.after hostOps1 W (Proc.devRef .tc main_v9)
      = aggregate (W (Proc.devRef .tc main_arg3)) (W (Proc.devRef .tc main_v1)) (W (Proc.devRef .tc main_v0)) := by
  after_results
  rfl

/-- The per-edge array the region leaves. -/
theorem left_edges (c : Dev nD) :
    Pipeline.withArrays spec0 c (V0 m c) (fun w => (dats m 0 c).arrAt w cfg0.N) (Proc.devRef .tc main_v1)
      = edgeTerm (m ((c : Thread nD τ).loc main_arg0)) (m ((c : Thread nD τ).loc main_arg1)) (m ((c : Thread nD τ).loc main_arg2)) :=
  (Pipeline.withArrays_arr spec0 launch0.win.arr_inj c _ _ 3).trans (edgeArray_final m c)

/-- The weight column the region leaves: an input, as found. -/
theorem left_column (c : Dev nD) :
    Pipeline.withArrays spec0 c (V0 m c) (fun w => (dats m 0 c).arrAt w cfg0.N) (Proc.devRef .tc main_v0)
      = weightColumn (m ((c : Thread nD τ).loc main_arg2)) :=
  (Pipeline.withArrays_arr spec0 launch0.win.arr_inj c _ _ 2).trans
    (((dats m 0 c).arrAt_in 2 rfl _).trans ((A_eq m c 2).trans (column_eq m c)))

/-- The destination indices the region leaves: no window's array, as launched. -/
theorem left_indices (c : Dev nD) :
    Pipeline.withArrays spec0 c (V0 m c) (fun w => (dats m 0 c).arrAt w cfg0.N) (Proc.devRef .tc main_arg3)
      = m ((c : Thread nD τ).loc main_arg3) :=
  (Pipeline.withArrays_of_ne _ c (V0 m c) _ main_arg3 (by exact (by decide : ∀ w, Pipeline.arrRef spec0 w ≠ main_arg3))).trans
    (V_main_arg3 m c)

/-- THE RESULT after the operations that follow the region. -/
theorem result_eq (c : Dev nD) :
    Pipeline.afterTail₀ cfgs (dats m) 0 (V0 m) [hostOps1] c main_v9
      = aggregate (m ((c : Thread nD τ).loc main_arg3))
          (edgeTerm (m ((c : Thread nD τ).loc main_arg0)) (m ((c : Thread nD τ).loc main_arg1)) (m ((c : Thread nD τ).loc main_arg2)))
          (weightColumn (m ((c : Thread nD τ).loc main_arg2))) := by
  unfold Pipeline.afterTail₀
  show StableHlo.after hostOps1 (Pipeline.withArrays spec0 c (V0 m c) (fun w => (dats m 0 c).arrAt w cfg0.N)) (Proc.devRef .tc main_v9) = _
  rw [tail_result, left_edges, left_column, left_indices]

/-- THE RUN, read: every weakly fair execution terminates with the result buffer at the weighted segment mean of the
    per-edge term over the weights, and the four arguments as launched. -/
theorem run : θ_run defs (onTc (τ := τ) (main (F := Ideal))) ⟨m, fun _ => 0, ρ⟩ fun r => ∀ c : Dev nD,
      r.2.mem ((c.tc : Thread nD τ).loc main_v9)
        = aggregate (m ((c.tc : Thread nD τ).loc main_arg3))
            (edgeTerm (m ((c.tc : Thread nD τ).loc main_arg0)) (m ((c.tc : Thread nD τ).loc main_arg1)) (m ((c.tc : Thread nD τ).loc main_arg2)))
            (weightColumn (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v9 (Pipeline.mem_restRefs_of main_v9 (by decide) (by decide))).trans (result_eq m c),
      ((h c).1 1).trans (((dats m 0 c).arrAt_in 1 rfl _).trans ((A_eq m c 1).trans (V_main_arg0 m c))),
      ((h c).1 0).trans (((dats m 0 c).arrAt_in 0 rfl _).trans ((A_eq m c 0).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.RaggedConv.Kernel

end
-- ==== Proof.lean ====
/-
  The kernel program and the reference compute one function of their arguments over the extended reals.

  For an edge `e` with coordinate features `coord[e,·]`, weight `w[e]` and destination node `idx[e]`, and an
  embedding table of 64 rows of 16 features, both programs form the per-edge term
      max (Σ_k coord[e,k] · emb[u,k]) 0 · w[e]            (3,200,000 × 64 entries)
  and return the weighted segment mean: the per-edge terms added into their destination node's row, divided by the
  node's summed weights (100,000 × 64 entries).

  The kernel program computes the per-edge terms block by block, 5120 edges at a grid point, by a product with the
  transposed table on the matrix unit, a rectification and a multiplication by the weight column; the narrowing of
  the product's operands is the identity on exact values. The 625 blocks tile the edges (Proof/BlockTerm.lean,
  Proof/EdgeArray.lean). The reference computes them by one contraction over the features, the same rectification
  and the weights broadcast (Proof/RefEdge.lean). Left and right factors of every product stand in the same order
  on both sides and the sum runs over the same 16 features, so the two per-edge arrays are equal term for term; no
  law of the extended reals beyond that is used, and the inputs' finiteness is never opened.

  The aggregation — two scatter-additions by the destination indices, a broadcast and a division — is the same
  sequence of operations in both programs, applied to equal per-edge terms and equal weight columns (the kernel
  program's column is the weights reshaped, the reference's the weights broadcast: both put `w[e]` at `(e, 0)`). It
  is carried as one function (Proof/EdgeTerm.lean `segmentMean`) and never opened (Proof/KernelRun.lean).

  The kernel's idealization rewrote no operation, so there is nothing to preserve; the three programs' runs
  terminate without fault and leave their arguments as launched.
-/
import proofs.«168170_j45612552683659_1_alg».proof.Defs
import proofs.«168170_j45612552683659_1_alg».proof.Proof.Gen.Kernel
import proofs.«168170_j45612552683659_1_alg».proof.Proof.Gen.Kernel.Skeleton
import proofs.«168170_j45612552683659_1_alg».proof.Proof.Gen.Kernel.Launch
import proofs.«168170_j45612552683659_1_alg».proof.Proof.Gen.Kernel.Points
import proofs.«168170_j45612552683659_1_alg».proof.Proof.Gen.Kernel.Frame
import proofs.«168170_j45612552683659_1_alg».proof.Proof.Gen.KernelIdeal
import proofs.«168170_j45612552683659_1_alg».proof.Proof.Gen.KernelIdeal.Skeleton
import proofs.«168170_j45612552683659_1_alg».proof.Proof.Gen.KernelIdeal.Launch
import proofs.«168170_j45612552683659_1_alg».proof.Proof.Gen.KernelIdeal.Points
import proofs.«168170_j45612552683659_1_alg».proof.Proof.Gen.KernelIdeal.Frame
import proofs.«168170_j45612552683659_1_alg».proof.Proof.Gen.ReferenceIdeal
import proofs.«168170_j45612552683659_1_alg».proof.Proof.Gen.Pre_finite_inputs
import proofs.«168170_j45612552683659_1_alg».proof.Proof.Gen.ReferenceIdeal.Run
import proofs.«168170_j45612552683659_1_alg».proof.Proof.Gen.ReferenceIdeal.Read
import proofs.«168170_j45612552683659_1_alg».proof.Proof.EdgeTerm
import proofs.«168170_j45612552683659_1_alg».proof.Proof.RefEdge
import proofs.«168170_j45612552683659_1_alg».proof.Proof.KernelRun
import Idealize.ShloMosaic.Adequacy
import Idealize.ShloMosaic.Init

noncomputable section

namespace Cert.Proof

open Idealize.ShloMosaic Idealize.SL.Sem

/-- The word-level kernel program runs and keeps its arguments. -/
theorem frame_kernel : Cert.frame_Kernel := fun m ρ _ => Cert.Kernel.Gen.frame m ρ

/-- So does its reading over the extended reals. -/
theorem frame_ideal : Cert.frame_KernelIdeal := fun m ρ _ => Cert.KernelIdeal.Gen.frame m ρ

/-- The reference runs and keeps its arguments: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both programs end at the weighted segment mean of the per-edge term over the weights: the kernel program by its
    run read block by block, the reference by its run read stage by stage, from arguments that agree. -/
theorem algebraic : Cert.algebraic_KernelIdeal_ReferenceIdeal := by
  intro m ρ m' ρ' _ hagree
  refine ⟨fun c => Cert.RaggedConv.Kernel.aggregate
      (m ((c.tc : Thread Cert.KernelIdeal.nD Cert.KernelIdeal.τ).loc Cert.KernelIdeal.main_arg3))
      (Cert.RaggedConv.edgeTerm
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2)))
      (Cert.RaggedConv.weightColumn
        (m ((c.tc : Thread Cert.KernelIdeal.nD Cert.KernelIdeal.τ).loc Cert.KernelIdeal.main_arg2))),
    Cert.RaggedConv.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v12_eq, Cert.RaggedConv.Reference.result_eq,
    (hagree c).1, (hagree c).2.1, (hagree c).2.2.1, (hagree c).2.2.2]
  rfl

theorem claim : Cert.Claim :=
  ⟨Cert.Kernel.Gen.facts, Cert.KernelIdeal.Gen.facts, Cert.ReferenceIdeal.Gen.facts, Cert.Pre_finite_inputs.Gen.facts,
    frame_kernel, frame_ideal, frame_reference, trivial, algebraic⟩

end Cert.Proof

end
